-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : FVec F S33554432 .f32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  let main_v4 : FVec F S33554432 .f32 := Host.absf main_arg1
  let main_cst_0 : FVec F S_ .f32 := constant S_ .f32 0x7F800000#32
  let main_v5 : FVec F S33554432 .f32 := broadcastInDim S33554432 ![] bcast_S_S33554432 main_cst_0
  let main_v6 : IVec S33554432 1 := cmpf .olt main_v4 main_v5
  let main_c_1 : IVec S_ 1 := constantI S_ 1 1#1
  let main_v7 : IVec S_ 1 := (fun x v => Host.reduce IntOp.andi x v reducesTo_S33554432_S_d0 h_S_) main_v6 main_c_1
  let main_v8 : IVec S_ 1 := andi main_v3 main_v7
  main_v8
-- ==== Kernel.lean ====
abbrev S33554432 : Shape := ⟨1, ![33554432]⟩
abbrev S262144x128 : Shape := ⟨2, ![262144, 128]⟩
abbrev S4096x128 : Shape := ⟨2, ![4096, 128]⟩
abbrev S_ : Shape := ⟨0, ![]⟩

abbrev nBuf : Space → Nat
  | .hbm => 14
  | .vmem => 8
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S262144x128, .f32⟩
  | .hbm, ⟨3, _⟩ => ⟨S262144x128, .f32⟩
  | .hbm, ⟨4, _⟩ => ⟨S262144x128, .i32⟩
  | .hbm, ⟨5, _⟩ => ⟨S262144x128, .f32⟩
  | .hbm, ⟨6, _⟩ => ⟨S_, .i32⟩
  | .hbm, ⟨7, _⟩ => ⟨S262144x128, .i32⟩
  | .hbm, ⟨8, _⟩ => ⟨S262144x128, .i1⟩
  | .hbm, ⟨9, _⟩ => ⟨S262144x128, .i1⟩
  | .hbm, ⟨10, _⟩ => ⟨S33554432, .i1⟩
  | .hbm, ⟨11, _⟩ => ⟨S33554432, .f32⟩
  | .hbm, ⟨12, _⟩ => ⟨S_, .f32⟩
  | .hbm, ⟨13, _⟩ => ⟨S33554432, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .i32⟩
  | .local _ .vmem, ⟨5, _⟩ => ⟨S4096x128, .i32⟩
  | .local _ .vmem, ⟨6, _⟩ => ⟨S4096x128, .f32⟩
  | .local _ .vmem, ⟨7, _⟩ => ⟨S4096x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S33554432_S262144x128 : S33554432.ShapeCasts S262144x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  natLt_1_32 : 1 < 32
  bcast_S_S262144x128 : S_.BroadcastsInDim S262144x128 (![] : Fin 0 → Fin S262144x128.rank)
  shapeCasts_S262144x128_S33554432 : S262144x128.ShapeCasts S33554432
  bcast_S_S33554432 : S_.BroadcastsInDim S33554432 (![] : Fin 0 → Fin S33554432.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .f32 = 32 ∨ (Rect.block (s := S262144x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S262144x128.size a
  hwx0_2 : ∀ i : grid0.Coords, EltTy.bits .i32 = 32 ∨ (Rect.block (s := S262144x128) S4096x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S262144x128.size a
  hwx0_3 : ∀ i : grid0.Coords, EltTy.bits .f32 = 32 ∨ (Rect.block (s := S262144x128) S4096x128.size (cc0_transform_3 i) (hinb0_3 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S4096x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S33554432 : Shape := ⟨1, ![33554432]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S33554432, .f32⟩
  | .hbm, ⟨3, _⟩ => ⟨S_, .f32⟩
  | .hbm, ⟨4, _⟩ => ⟨S33554432, .f32⟩
  | .hbm, ⟨5, _⟩ => ⟨S33554432, .i1⟩
  | .hbm, ⟨6, _⟩ => ⟨S_, .f32⟩
  | .hbm, ⟨7, _⟩ => ⟨S33554432, .f32⟩
  | .hbm, ⟨8, _⟩ => ⟨S33554432, .f32⟩
  | .hbm, ⟨9, _⟩ => ⟨S33554432, .f32⟩
  | .hbm, ⟨10, _⟩ => ⟨S_, .f32⟩
  | .hbm, ⟨11, _⟩ => ⟨S33554432, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)

variable [Facts₀]

class Facts : Prop extends Facts₀ where

variable [Facts]
-- ==== Proof.Neuron.lean ====
/-
  The neuron update, stated once for arrays of any shape.

  One step of an integrate-and-fire layer with reset by subtraction: the input current `x` is added onto the
  membrane potential `u` (`pot`), the neuron fires where the new potential reaches the threshold 1 (`fire`),
  and a neuron that fired has the threshold taken off its potential (`rest`). Each output entry depends on the one
  entry of `x` and of `u` at the same index and on nothing else, so the update commutes with every re-indexing of
  the arrays: with reading a block out of them, and with viewing a flat array of 33554432 entries as 262144 rows
  of 128 and back. No law of arithmetic is used: both programs apply the same operations, in the same order, to
  the same two entries.
-/
import Idealize.ShloMosaic.PureOps
import Idealize.ShloMosaic.Lib.Pipeline.Value

noncomputable section

namespace Cert.Neuron

open Idealize.ShloMosaic

variable {F : FTy → Type} [FloatOps F]

/-- The firing threshold: the float 1. -/
def thr : F .f32 := FloatOps.ofBits .f32 0x3F800000#32

/-- Integrate: the potential `u` plus the input `x`. -/
def pot (x u : F .f32) : F .f32 := FloatOps.addf u x

/-- Fire: one where the integrated potential is at least the threshold. -/
def fire (x u : F .f32) : BitVec 1 := FloatOps.cmpf .oge (pot x u) thr

/-- Reset by subtraction: a neuron that fired loses the threshold, one that did not keeps its potential. -/
def rest (x u : F .f32) : F .f32 := Scalar.select (fire x u) (FloatOps.subf (pot x u) thr) (pot x u)

/-- The spikes of a whole array, entry by entry. -/
def spikes (s : Shape) (x u : FVec F s .f32) : IVec s 1 := fun i => fire (x i) (u i)

/-- The spikes as 32-bit words (zero or one). -/
def spikeWords (s : Shape) (x u : FVec F s .f32) : IVec s 32 := fun i => (fire (x i) (u i)).setWidth 32

/-- The potentials after the reset, entry by entry. -/
def potentials (s : Shape) (x u : FVec F s .f32) : FVec F s .f32 := fun i => rest (x i) (u i)

/-- A one-bit value widened to a word differs from zero exactly when the bit is set. -/
theorem word_ne_zero (b : BitVec 1) : IntOp.cmpi .ne (b.setWidth 32) 0#32 = b := by
  revert b; decide

/-- Comparing the spike words against zero gives the spikes back. -/
theorem spikeWords_ne_zero (s : Shape) (x u : FVec F s .f32) (z : IVec s 32) (hz : ∀ i, z i = 0#32) :
    cmpi .ne (spikeWords s x u) z = spikes s x u := by
  funext i
  show IntOp.cmpi .ne ((fire (x i) (u i)).setWidth 32) (z i) = fire (x i) (u i)
  rw [hz i, word_ne_zero]

/-- The update commutes with a change of shape: the spikes of the re-shaped arrays are the re-shaped spikes. -/
theorem spikes_shapeCast {s t : Shape} (h : s.ShapeCasts t) (x u : FVec F s .f32) :
    shapeCast t (spikes s x u) h = spikes t (shapeCast t x h) (shapeCast t u h) := rfl

theorem potentials_shapeCast {s t : Shape} (h : s.ShapeCasts t) (x u : FVec F s .f32) :
    shapeCast t (potentials s x u) h = potentials t (shapeCast t x h) (shapeCast t u h) := rfl

/-- Computed on the arrays viewed under another shape and viewed back, the spikes are those of the arrays. -/
theorem spikes_there_and_back {s t : Shape} (h : s.ShapeCasts t) (h' : t.ShapeCasts s) (x u : FVec F s .f32) :
    shapeCast s (spikes t (shapeCast t x h) (shapeCast t u h)) h' = spikes s x u := by
  rw [spikes_shapeCast, shapeCast_shapeCast, shapeCast_shapeCast]

theorem potentials_there_and_back {s t : Shape} (h : s.ShapeCasts t) (h' : t.ShapeCasts s) (x u : FVec F s .f32) :
    shapeCast s (potentials t (shapeCast t x h) (shapeCast t u h)) h' = potentials s x u := by
  rw [potentials_shapeCast, shapeCast_shapeCast, shapeCast_shapeCast]

end Cert.Neuron

end
-- ==== Proof.KernelBlocks.lean ====
/-
  What the region leaves in its two result arrays.

  The region walks the 262144 rows of the two operand arrays in 64 blocks of 4096 rows, all 128 columns each. At
  grid point `t` every window, operand or result, is at block `(t, 0)`: rows `4096 t … 4096 t + 4095`. The body
  loads the two operand blocks whole, applies the neuron update entry by entry, and stores the spikes (as words)
  and the reset potentials whole. So what point `t` writes back is block `t` of the update applied to the whole
  operand arrays, and as the 64 blocks tile the rows, the result arrays end holding exactly that.
-/
import proofs.«102509_j41583873360169_1_alg».proof.Proof.Gen.KernelIdeal.Frame
import proofs.«102509_j41583873360169_1_alg».proof.Proof.Neuron
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.Neuron

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-! ## The body's arithmetic is the neuron update on a block -/

/-- The words the body stores: the spikes of the potential block `u` driven by the input block `x`. -/
theorem words_pay (u x : Vec F S4096x128 .f32) : k0_pay4 u x = spikeWords S4096x128 x u := by
  unfold k0_pay4 k0_pay2 k0_pay1
  simp only [shapeCast_self]
  rfl

/-- The potentials the body stores: those of `u` driven by `x`, after the reset. -/
theorem potentials_pay (u x : Vec F S4096x128 .f32) : k0_pay3 u x = potentials S4096x128 x u := by
  unfold k0_pay3 k0_pay2 k0_pay1
  simp only [shapeCast_self]
  rfl

/-! ## Where the blocks lie -/

/-- At point `t` every window is at block `(t, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The input window's entry `j` of block `t` lies where the spike window's does. -/
theorem emb0_eq2 (t : Fin cfg0.N) (j) : ((cfg0.win 0).blk t).view.emb j = ((cfg0.win 2).blk t).view.emb j := by
  obtain ⟨e0, e1, e2, e3, e4, e5, e6, e7⟩ := idx_facts t
  funext a; apply Fin.ext
  match a with
  | ⟨0, _⟩ => show win0_0.index t (0 : Fin 2) * 4096 + 1 * (j 0).val = win0_2.index t (0 : Fin 2) * 4096 + 1 * (j 0).val; omega
  | ⟨1, _⟩ => show win0_0.index t (1 : Fin 2) * 128 + 1 * (j 1).val = win0_2.index t (1 : Fin 2) * 128 + 1 * (j 1).val; omega

theorem emb1_eq2 (t : Fin cfg0.N) (j) : ((cfg0.win 1).blk t).view.emb j = ((cfg0.win 2).blk t).view.emb j := by
  obtain ⟨e0, e1, e2, e3, e4, e5, e6, e7⟩ := idx_facts t
  funext a; apply Fin.ext
  match a with
  | ⟨0, _⟩ => show win0_1.index t (0 : Fin 2) * 4096 + 1 * (j 0).val = win0_2.index t (0 : Fin 2) * 4096 + 1 * (j 0).val; omega
  | ⟨1, _⟩ => show win0_1.index t (1 : Fin 2) * 128 + 1 * (j 1).val = win0_2.index t (1 : Fin 2) * 128 + 1 * (j 1).val; omega

theorem emb0_eq3 (t : Fin cfg0.N) (j) : ((cfg0.win 0).blk t).view.emb j = ((cfg0.win 3).blk t).view.emb j := by
  obtain ⟨e0, e1, e2, e3, e4, e5, e6, e7⟩ := idx_facts t
  funext a; apply Fin.ext
  match a with
  | ⟨0, _⟩ => show win0_0.index t (0 : Fin 2) * 4096 + 1 * (j 0).val = win0_3.index t (0 : Fin 2) * 4096 + 1 * (j 0).val; omega
  | ⟨1, _⟩ => show win0_0.index t (1 : Fin 2) * 128 + 1 * (j 1).val = win0_3.index t (1 : Fin 2) * 128 + 1 * (j 1).val; omega

theorem emb1_eq3 (t : Fin cfg0.N) (j) : ((cfg0.win 1).blk t).view.emb j = ((cfg0.win 3).blk t).view.emb j := by
  obtain ⟨e0, e1, e2, e3, e4, e5, e6, e7⟩ := idx_facts t
  funext a; apply Fin.ext
  match a with
  | ⟨0, _⟩ => show win0_1.index t (0 : Fin 2) * 4096 + 1 * (j 0).val = win0_3.index t (0 : Fin 2) * 4096 + 1 * (j 0).val; omega
  | ⟨1, _⟩ => show win0_1.index t (1 : Fin 2) * 128 + 1 * (j 1).val = win0_3.index t (1 : Fin 2) * 128 + 1 * (j 1).val; omega

/-! ## What a point writes back -/

/-- Point `t` writes back block `t` of the spike words of the operand arrays as the region finds them. -/
theorem words_flushed (c : Dev nD) (t : Fin cfg0.N) :
    (dats m 0 c).flushed 2 t
      = ((cfg0.win 2).blk t).view.read (Elt F) (spikeWords S262144x128 (V m c main_v0) (V m c main_v1)) := by
  show (cfg0.win 2).cut (grid0.coords t) ((dats m 0 c).after 2 t) = _
  rw [after0_2]
  unfold out0_2
  rw [View.canon_unit_zero hz]
  simp only [View.ld_unit_zero (S := S4096x128) hz]
  rw [words_pay]
  funext j
  show (fire (V m c main_v0 (((cfg0.win 0).blk t).view.emb j)) (V m c main_v1 (((cfg0.win 1).blk t).view.emb j))).setWidth 32
    = (fire (V m c main_v0 (((cfg0.win 2).blk t).view.emb j)) (V m c main_v1 (((cfg0.win 2).blk t).view.emb j))).setWidth 32
  rw [emb0_eq2, emb1_eq2]

/-- Point `t` writes back block `t` of the reset potentials of the operand arrays. -/
theorem potentials_flushed (c : Dev nD) (t : Fin cfg0.N) :
    (dats m 0 c).flushed 3 t
      = ((cfg0.win 3).blk t).view.read (Elt F) (potentials S262144x128 (V m c main_v0) (V m c main_v1)) := by
  show (cfg0.win 3).cut (grid0.coords t) ((dats m 0 c).after 3 t) = _
  rw [after0_3]
  unfold out0_3
  rw [View.canon_unit_zero hz]
  simp only [View.ld_unit_zero (S := S4096x128) hz]
  rw [potentials_pay]
  funext j
  show rest (V m c main_v0 (((cfg0.win 0).blk t).view.emb j)) (V m c main_v1 (((cfg0.win 1).blk t).view.emb j))
    = rest (V m c main_v0 (((cfg0.win 3).blk t).view.emb j)) (V m c main_v1 (((cfg0.win 3).blk t).view.emb j))
  rw [emb0_eq3, emb1_eq3]

/-! ## The blocks tile the rows -/

theorem mem_words_blk (t : Fin cfg0.N) (i : S262144x128.Idx) :
    i ∈ ((cfg0.win 2).blk t).view.set ↔ ∀ a : Fin 2, win0_2.index t a * S4096x128.size a ≤ (i a).val ∧ (i a).val < win0_2.index t a * S4096x128.size a + S4096x128.size a := by
  show i ∈ ((View.whole main_v2_0).slice (win0_2.rect t)).set ↔ _
  rw [View.set_slice_whole, Rect.mem_set_unit]
  exact Iff.rfl

theorem mem_potentials_blk (t : Fin cfg0.N) (i : S262144x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_v2_1).slice (win0_3.rect t)).set ↔ _
  rw [View.set_slice_whole, Rect.mem_set_unit]
  exact Iff.rfl

/-- Row `r` is in the block of point `r / 4096`. -/
theorem point_of_row (i : S262144x128.Idx) : ∃ t : Fin cfg0.N, t.val = (i 0).val / 4096 := by
  have hi0 : (i 0).val < 262144 := (i 0).isLt
  exact ⟨⟨(i 0).val / 4096, by show (i 0).val / 4096 < grid0.N; rw [N_0]; omega⟩, rfl⟩

theorem words_cover (i : S262144x128.Idx) :
    ∃ t : Fin cfg0.N, (cfg0.win 2).flush t = true ∧ i ∈ ((cfg0.win 2).blk t).view.set := by
  have hi1 : (i 1).val < 128 := (i 1).isLt
  obtain ⟨t, ht⟩ := point_of_row i
  obtain ⟨e0, e1, e2, e3, e4, e5, e6, e7⟩ := idx_facts t
  refine ⟨t, flush0_2 t, ?_⟩
  rw [mem_words_blk]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 128 ≤ (i 1).val ∧ (i 1).val < win0_2.index t (1 : Fin 2) * 128 + 128; omega

theorem potentials_cover (i : S262144x128.Idx) :
    ∃ t : Fin cfg0.N, (cfg0.win 3).flush t = true ∧ i ∈ ((cfg0.win 3).blk t).view.set := by
  have hi1 : (i 1).val < 128 := (i 1).isLt
  obtain ⟨t, ht⟩ := point_of_row i
  obtain ⟨e0, e1, e2, e3, e4, e5, e6, e7⟩ := idx_facts t
  refine ⟨t, flush0_3 t, ?_⟩
  rw [mem_potentials_blk]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 128 ≤ (i 1).val ∧ (i 1).val < win0_3.index t (1 : Fin 2) * 128 + 128; omega

/-! ## The two arrays after the region -/

/-- The spike array ends at the spike words of the operand arrays. -/
theorem words_final (c : Dev nD) :
    (dats m 0 c).arrAt 2 cfg0.N = spikeWords S262144x128 (V m c main_v0) (V m c main_v1) :=
  (dats m 0 c).arrAt_eq_of_cover 2 _ (fun t _ => words_flushed m c t) words_cover

/-- The potential array ends at the reset potentials of the operand arrays. -/
theorem potentials_final (c : Dev nD) :
    (dats m 0 c).arrAt 3 cfg0.N = potentials S262144x128 (V m c main_v0) (V m c main_v1) :=
  (dats m 0 c).arrAt_eq_of_cover 3 _ (fun t _ => potentials_flushed m c t) potentials_cover

end Cert.KernelIdeal.Hand

end
-- ==== Proof.KernelRun.lean ====
/-
  The kernel program's run, read: each result as a function of the two argument arrays.

  Before the region the host views each flat argument array of 33554432 entries as 262144 rows of 128; that is
  what the region finds in its two operand arrays. After the region the host compares the spike words against
  zero — which gives back the spikes, a word being zero or one —, views spikes and potentials as flat arrays
  again, and fills the third result with zeros. The neuron update commutes with the change of view, and viewing
  an array as rows and then flat again gives the array back: so the first result is the spikes and the third the
  reset potentials of the flat argument arrays themselves.
-/
import proofs.«102509_j41583873360169_1_alg».proof.Proof.KernelBlocks
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.Neuron

variable {F : FTy → Type} [FloatOps F]
variable (m : (ℓ : Loc nD τ sig) → Buf (Elt F) ℓ) (ρ : Dev nD → PrngReg)

/-! ## What the region finds -/

/-- The first operand array is the input currents viewed as rows. -/
theorem V_image (c : Dev nD) : (V m c main_v0 : S262144x128.Idx → Elt F .f32)
    = shapeCast S262144x128 (m ((c : Thread nD τ).loc main_arg0) : S33554432.Idx → Elt F .f32) shapeCasts_S33554432_S262144x128 := by
  show StableHlo.after hostOps0 (fun b => m (c, b)) (Proc.devRef .tc main_v0) = _
  after_results
  rfl

/-- The second operand array is the membrane potentials viewed as rows. -/
theorem V_mempot (c : Dev nD) : (V m c main_v1 : S262144x128.Idx → Elt F .f32)
    = shapeCast S262144x128 (m ((c : Thread nD τ).loc main_arg1) : S33554432.Idx → Elt F .f32) shapeCasts_S33554432_S262144x128 := by
  show StableHlo.after hostOps0 (fun b => m (c, b)) (Proc.devRef .tc main_v1) = _
  after_results
  rfl

/-! ## What the region leaves, as the lines after it find it -/

theorem words_left (c : Dev nD) :
    Pipeline.withArrays (cfgs 0).spec c (V0 m c) (fun w => (dats m 0 c).arrAt w (cfgs 0).N) (Proc.devRef .tc main_v2_0)
      = spikeWords S262144x128 (V m c main_v0) (V m c main_v1) :=
  (Pipeline.withArrays_arr spec0 launch0.win.arr_inj c _ _ 2).trans (words_final m c)

theorem potentials_left (c : Dev nD) :
    Pipeline.withArrays (cfgs 0).spec c (V0 m c) (fun w => (dats m 0 c).arrAt w (cfgs 0).N) (Proc.devRef .tc main_v2_1)
      = potentials S262144x128 (V m c main_v0) (V m c main_v1) :=
  (Pipeline.withArrays_arr spec0 launch0.win.arr_inj c _ _ 3).trans (potentials_final m c)

/-! ## The three results -/

/-- The first result: the spikes of the flat argument arrays. -/
theorem tail_spikes (c : Dev nD) : Pipeline.afterTail₀ cfgs (dats m) 0 (V0 m) [hostOps1] c main_v6
    = spikes S33554432 (m ((c : Thread nD τ).loc main_arg0)) (m ((c : Thread nD τ).loc main_arg1)) := by
  unfold Pipeline.afterTail₀
  show StableHlo.after hostOps1 _ (Proc.devRef .tc main_v6) = _
  after_results
  rw [words_left m c]
  refine Eq.trans (b := shapeCast S33554432 (cmpi .ne (spikeWords S262144x128 (V m c main_v0) (V m c main_v1))
    (broadcastInDim S262144x128 ![] bcast_S_S262144x128 (constantI S_ 32 0#32))) shapeCasts_S262144x128_S33554432) rfl ?_
  rw [spikeWords_ne_zero S262144x128 _ _ (broadcastInDim S262144x128 ![] bcast_S_S262144x128 (constantI S_ 32 0#32))
    (fun i => rfl), V_image, V_mempot]
  exact spikes_there_and_back _ _ _ _

/-- The second result: zeros. -/
theorem tail_zero (c : Dev nD) : Pipeline.afterTail₀ cfgs (dats m) 0 (V0 m) [hostOps1] c main_v8
    = broadcastInDim S33554432 ![] bcast_S_S33554432 (constant S_ .f32 0x00000000#32) := by
  unfold Pipeline.afterTail₀
  show StableHlo.after hostOps1 _ (Proc.devRef .tc main_v8) = _
  after_results

/-- The third result: the reset potentials of the flat argument arrays. -/
theorem tail_potentials (c : Dev nD) : Pipeline.afterTail₀ cfgs (dats m) 0 (V0 m) [hostOps1] c main_v7
    = potentials S33554432 (m ((c : Thread nD τ).loc main_arg0)) (m ((c : Thread nD τ).loc main_arg1)) := by
  unfold Pipeline.afterTail₀
  show StableHlo.after hostOps1 _ (Proc.devRef .tc main_v7) = _
  after_results
  rw [potentials_left m c]
  refine Eq.trans (b := shapeCast S33554432 (potentials S262144x128 (V m c main_v0) (V m c main_v1))
    shapeCasts_S262144x128_S33554432) rfl ?_
  rw [V_image, V_mempot]
  exact potentials_there_and_back _ _ _ _

/-! ## The run -/

/-- Every weakly fair execution of the kernel program terminates with the three results at the spikes, zeros and
    the reset potentials of the argument arrays, and the arguments as they were. -/
theorem run : θ_run defs (onTc (τ := τ) (main (F := F))) ⟨m, fun _ => 0, ρ⟩ fun r => ∀ c : Dev nD,
      r.2.mem ((c.tc : Thread nD τ).loc main_v6) = spikes S33554432 (m ((c.tc : Thread nD τ).loc main_arg0)) (m ((c.tc : Thread nD τ).loc main_arg1))
      ∧ r.2.mem ((c.tc : Thread nD τ).loc main_v8) = broadcastInDim S33554432 ![] bcast_S_S33554432 (constant S_ .f32 0x00000000#32)
      ∧ r.2.mem ((c.tc : Thread nD τ).loc main_v7) = potentials S33554432 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v6 (Pipeline.mem_restRefs_of main_v6 (by decide) (by decide))).trans (tail_spikes m c),
      ((h c).2 main_v8 (Pipeline.mem_restRefs_of main_v8 (by decide) (by decide))).trans (tail_zero m c),
      ((h c).2 main_v7 (Pipeline.mem_restRefs_of main_v7 (by decide) (by decide))).trans (tail_potentials m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Hand

end
-- ==== Proof.lean ====
/-
  The kernel program and its reference compute one step of an integrate-and-fire layer with reset by
  subtraction over 33554432 neurons: the new potential is the old potential plus the input; a neuron fires where
  that sum is at least 1; a neuron that fired has 1 taken off. The results are the spikes, an all-zero trace
  array, and the potentials after the reset.

  The reference does this in five whole-array operations. The kernel program views the two flat arrays as 262144
  rows of 128, runs a pipelined region over 64 blocks of 4096 rows whose body is the same five operations on a
  block (the spikes stored as words), and afterwards compares the words against zero and views both results as
  flat arrays again. Every entry of every result depends only on the entry of the input and of the potential at
  the same position, through the same operations with the same constant 1 in the same order, so no law of
  arithmetic is needed and the precondition is not used: the two programs agree on every pair of extended-real
  arrays. What has to be shown is only bookkeeping of positions: that the 64 blocks tile the rows (KernelBlocks),
  that viewing an array as rows and back is the identity and the update commutes with it (Neuron, KernelRun), and
  that a word which is zero or one differs from zero exactly when it is one (Neuron).

  The three frames: the two kernel programs' are the generated ones; the reference's is its generated run with
  the results dropped. The idealization rewrote nothing, so `preserves` has nothing to state.
-/
import proofs.«102509_j41583873360169_1_alg».proof.Defs
import proofs.«102509_j41583873360169_1_alg».proof.Proof.Gen.Kernel
import proofs.«102509_j41583873360169_1_alg».proof.Proof.Gen.Kernel.Frame
import proofs.«102509_j41583873360169_1_alg».proof.Proof.Gen.KernelIdeal
import proofs.«102509_j41583873360169_1_alg».proof.Proof.Gen.KernelIdeal.Frame
import proofs.«102509_j41583873360169_1_alg».proof.Proof.Gen.ReferenceIdeal
import proofs.«102509_j41583873360169_1_alg».proof.Proof.Gen.ReferenceIdeal.Run
import proofs.«102509_j41583873360169_1_alg».proof.Proof.Gen.Pre_finite_inputs
import proofs.«102509_j41583873360169_1_alg».proof.Proof.KernelRun

noncomputable section

open Idealize.ShloMosaic Idealize.ShloMosaic.TcCoe Idealize.SL.Sem

/-! ## The reference's terms are the neuron update -/

namespace Cert.ReferenceIdeal.RefValue

open Cert.ReferenceIdeal Cert.ReferenceIdeal.Gen Cert.Neuron

variable {F : FTy → Type} [FloatOps F]

/-- The reference's first result, entry by entry: one where potential plus input reaches 1. -/
theorem spikes_eq (x u : FVec F S33554432 .f32) :
    cmpf .oge (addf u x) (broadcastInDim S33554432 ![] bcast_S_S33554432 (constant S_ .f32 0x3F800000#32))
      = spikes S33554432 x u := rfl

/-- The reference's third result, entry by entry: the sum, less 1 where the neuron fired. -/
theorem potentials_eq (x u : FVec F S33554432 .f32) :
    select (cmpf .oge (addf u x) (broadcastInDim S33554432 ![] bcast_S_S33554432 (constant S_ .f32 0x3F800000#32)))
        (subf (addf u x) (broadcastInDim S33554432 ![] bcast_S_S33554432 (constant S_ .f32 0x3F800000#32))) (addf u x)
      = potentials S33554432 x u := rfl

end Cert.ReferenceIdeal.RefValue

/-! ## The claims -/

namespace Cert.Proof

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => ⟨(h c).2.2.2.1, (h c).2.2.2.2⟩)
    (Cert.ReferenceIdeal.Value.run (F := Ideal) m ρ)

/-- Both programs end with the spikes, zeros, and the reset potentials of the same two arrays. -/
theorem algebraic : Cert.algebraic_KernelIdeal_ReferenceIdeal := by
  intro m ρ m' ρ' _ hagree
  refine ⟨_, _, _, Cert.KernelIdeal.Hand.run (F := Ideal) m ρ, ?_⟩
  refine (θ_run Cert.ReferenceIdeal.defs _ _).mono (fun _ h c => ?_) (Cert.ReferenceIdeal.Value.run (F := Ideal) m' ρ')
  obtain ⟨h2, h6, h5, ha0, ha1⟩ := h c
  refine ⟨h2.trans ?_, h6.trans ?_, h5.trans ?_, ha0, ha1⟩
  · rw [(hagree c).1, (hagree c).2]
    exact Cert.ReferenceIdeal.RefValue.spikes_eq _ _
  · rfl
  · rw [(hagree c).1, (hagree c).2]
    exact Cert.ReferenceIdeal.RefValue.potentials_eq _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
